-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v46) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000x3 : Shape := ⟨2, ![50000, 3]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S50000 : S_.BroadcastsInDim S50000 (![] : Fin 0 → Fin S50000.rank)
  reducesTo_S50000_S_d0 : S50000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S50000x3 .f32) (main_arg3 : FVec F S50000 .f32) (main_arg4 : FVec F S128x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg2
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000 .f32 := Host.absf main_arg3
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S50000x3 : Shape := ⟨2, ![50000, 3]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩
abbrev S1x32 : Shape := ⟨2, ![1, 32]⟩
abbrev S1x1 : Shape := ⟨2, ![1, 1]⟩
abbrev S8000x128 : Shape := ⟨2, ![8000, 128]⟩
abbrev S8000x1 : Shape := ⟨2, ![8000, 1]⟩
abbrev S8000x64 : Shape := ⟨2, ![8000, 64]⟩
abbrev S8000x32 : Shape := ⟨2, ![8000, 32]⟩
abbrev S8000 : Shape := ⟨1, ![8000]⟩

abbrev nBuf : Space → Nat
  | .hbm => 70
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000x3, .f32⟩
  | .hbm, ⟨3, _⟩ => ⟨S50000, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x128, .f32⟩
  | .hbm, ⟨33, _⟩ => ⟨S1x64, .f32⟩
  | .hbm, ⟨34, _⟩ => ⟨S1x32, .f32⟩
  | .hbm, ⟨35, _⟩ => ⟨S1x32, .f32⟩
  | .hbm, ⟨36, _⟩ => ⟨S1x1, .f32⟩
  | .hbm, ⟨37, _⟩ => ⟨S800000x128, .f32⟩
  | .hbm, ⟨38, _⟩ => ⟨S800000x1, .f32⟩
  | .hbm, ⟨39, _⟩ => ⟨S800000x64, .f32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S50000x64, .f32⟩
  | .hbm, ⟨59, _⟩ => ⟨S800000, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S800000, .f32⟩
  | .hbm, ⟨66, _⟩ => ⟨S800000, .i1⟩
  | .hbm, ⟨67, _⟩ => ⟨S800000, .i32⟩
  | .hbm, ⟨68, _⟩ => ⟨S_, .i32⟩
  | .hbm, ⟨69, _⟩ => ⟨S_, .i32⟩
  | .local _ .vmem, ⟨0, _⟩ => ⟨S8000x128, .f32⟩
  | .local _ .vmem, ⟨1, _⟩ => ⟨S8000x128, .f32⟩
  | .local _ .vmem, ⟨2, _⟩ => ⟨S128x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S1x32, .f32⟩
  | .local _ .vmem, ⟨7, _⟩ => ⟨S1x1, .f32⟩
  | .local _ .vmem, ⟨8, _⟩ => ⟨S8000x128, .f32⟩
  | .local _ .vmem, ⟨9, _⟩ => ⟨S8000x128, .f32⟩
  | .local _ .vmem, ⟨10, _⟩ => ⟨S8000x1, .f32⟩
  | .local _ .vmem, ⟨11, _⟩ => ⟨S8000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  shapeCasts_S64_S1x64 : S64.ShapeCasts S1x64
  shapeCasts_S32_S1x32 : S32.ShapeCasts S1x32
  shapeCasts_S32x1_S1x32 : S32x1.ShapeCasts S1x32
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  reduces_S8000x32_S8000 : S8000x32.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  natLt_1_32 : 1 < 32
  broadcasts_S8000x1_S8000x128 : S8000x1.Broadcasts S8000x128
  inb_S8000x1_S8000x1_0_0 : ∀ a, (![0, 0] : Fin 2 → Nat) a + S8000x1.size a ≤ S8000x1.size a
  h_S8000x1 : 0 < S8000x1.numel
  slices_S800000x128_S800000x64_0_0 : S800000x128.Slices ![0, 0] S800000x64
  slices_S800000x128_S800000x64_0_64 : S800000x128.Slices ![0, 64] S800000x64
  shapeCasts_S800000x1_S800000 : S800000x1.ShapeCasts S800000
  reducesTo_S800000_S_d0 : S800000.ReducesTo [0] S_
  h_S_ : 0 < S_.numel
  gather_S50000x64_S800000x1_S800000x64_1_0_n_n_0_1_164_wf : GatherDims.WF S50000x64 S800000x1 S800000x64 [1] [0] [] [0] [] 1 ![1, 64]
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x1.size a ≤ S800000x1.size a
  hwx0_8 : ∀ i : grid0.Coords, EltTy.bits .f32 = 32 ∨ (Rect.block (s := S800000x1) S8000x1.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v18) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S8000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S8000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000x3 : Shape := ⟨2, ![50000, 3]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩
abbrev S800000x32 : Shape := ⟨2, ![800000, 32]⟩
abbrev S1x32 : Shape := ⟨2, ![1, 32]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000x3, .f32⟩
  | .hbm, ⟨3, _⟩ => ⟨S50000, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x128, .f32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S800000x32, .f32⟩
  | .hbm, ⟨41, _⟩ => ⟨S1x32, .f32⟩
  | .hbm, ⟨42, _⟩ => ⟨S800000x32, .f32⟩
  | .hbm, ⟨43, _⟩ => ⟨S800000x32, .f32⟩
  | .hbm, ⟨44, _⟩ => ⟨S_, .f32⟩
  | .hbm, ⟨45, _⟩ => ⟨S800000x32, .f32⟩
  | .hbm, ⟨46, _⟩ => ⟨S800000x32, .f32⟩
  | .hbm, ⟨47, _⟩ => ⟨S800000x1, .f32⟩
  | .hbm, ⟨48, _⟩ => ⟨S1x1, .f32⟩
  | .hbm, ⟨49, _⟩ => ⟨S800000x1, .f32⟩
  | .hbm, ⟨50, _⟩ => ⟨S800000x1, .f32⟩
  | .hbm, ⟨51, _⟩ => ⟨S800000x1, .f32⟩
  | .hbm, ⟨52, _⟩ => ⟨S800000x1, .f32⟩
  | .hbm, ⟨53, _⟩ => ⟨S_, .f32⟩
  | .hbm, ⟨54, _⟩ => ⟨S800000x1, .f32⟩
  | .hbm, ⟨55, _⟩ => ⟨S800000x1, .f32⟩
  | .hbm, ⟨56, _⟩ => ⟨S_, .f32⟩
  | .hbm, ⟨57, _⟩ => ⟨S800000x1, .f32⟩
  | .hbm, ⟨58, _⟩ => ⟨S800000x1, .f32⟩
  | .hbm, ⟨59, _⟩ => ⟨S_, .f32⟩
  | .hbm, ⟨60, _⟩ => ⟨S800000x1, .f32⟩
  | .hbm, ⟨61, _⟩ => ⟨S800000x1, .i1⟩
  | .hbm, ⟨62, _⟩ => ⟨S800000x1, .f32⟩
  | .hbm, ⟨63, _⟩ => ⟨S_, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S800000x128, .f32⟩
  | .hbm, ⟨70, _⟩ => ⟨S800000x64, .f32⟩
  | .hbm, ⟨71, _⟩ => ⟨S_, .f32⟩
  | .hbm, ⟨72, _⟩ => ⟨S800000x64, .f32⟩
  | .hbm, ⟨73, _⟩ => ⟨S800000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S50000x64, .f32⟩
  | .hbm, ⟨83, _⟩ => ⟨S800000x64, .f32⟩
  | .hbm, ⟨84, _⟩ => ⟨S_, .f32⟩
  | .hbm, ⟨85, _⟩ => ⟨S800000x64, .f32⟩
  | .hbm, ⟨86, _⟩ => ⟨S800000x64, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S50000x64, .f32⟩
  | .hbm, ⟨96, _⟩ => ⟨S800000, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S800000, .f32⟩
  | .hbm, ⟨103, _⟩ => ⟨S800000, .i1⟩
  | .hbm, ⟨104, _⟩ => ⟨S800000, .i32⟩
  | .hbm, ⟨105, _⟩ => ⟨S_, .i32⟩
  | .hbm, ⟨106, _⟩ => ⟨S_, .i32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  slices_S800000x128_S800000x64_0_0 : S800000x128.Slices ![0, 0] S800000x64
  slices_S800000x128_S800000x64_0_64 : S800000x128.Slices ![0, 64] S800000x64
  shapeCasts_S800000x1_S800000 : S800000x1.ShapeCasts S800000
  reducesTo_S800000_S_d0 : S800000.ReducesTo [0] S_
  h_S_ : 0 < S_.numel
  natLt_1_32 : 1 < 32
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x32_S800000x32_1_0_0_1_n_n_wf : DotDims.WF S800000x64 S64x32 S800000x32 [1] [0] [0] [1] [] []
  dot_S800000x32_S32x1_S800000x1_1_0_0_1_n_n_wf : DotDims.WF S800000x32 S32x1 S800000x1 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  One edge's arithmetic, as a function of ONE row of the gathered feature matrix.

  Every edge `e` owns a row of 128 numbers (the source node's 64 features followed by the target node's). From that
  row alone both programs compute: a first hidden layer `max (row · W1 + b1) 0` (64 numbers), a second one
  `max (h1 · W2 + b2) 0` (32 numbers), a logit `h2 · W3 + b3`, its logistic `s`, the gate
  `[s < 0.7] · (1 − s)`, and the signal `0.05 · (gate · tanh (row j))` for each of the 128 columns `j`. The float constants
  stay the binary values both programs print; only the logistic's `1` is ever evaluated (`ofBits_one`).
  The weights enter as plain functions of their coordinates, so that either program can hand in its own layout of
  them (a `[64]` bias or the same numbers as a `[1, 64]` row).
-/
import Idealize.ShloMosaic.PureOps.Ideal.Laws

noncomputable section

namespace Cert.EdgeGate

open Idealize.ShloMosaic

/-- The pattern `0x3F800000` is the real number one. -/
theorem ofBits_one : Ideal.ofBits .f32 0x3F800000#32 = (1 : EReal) := by
  simp [Ideal.ofBits, Ideal.ieee, -EReal.coe_mul]; norm_num

section Row

variable (W1 : Fin 128 → Fin 64 → Ideal .f32) (b1 : Fin 64 → Ideal .f32)
  (W2 : Fin 64 → Fin 32 → Ideal .f32) (b2 : Fin 32 → Ideal .f32)
  (W3 : Fin 32 → Ideal .f32) (b3 : Ideal .f32) (row : Fin 128 → Ideal .f32)

/-- First hidden layer at unit `l`: the row against column `l` of `W1`, plus the bias, clipped below at zero. -/
def hidden1 (l : Fin 64) : Ideal .f32 :=
  FloatOps.maximumf (F := Ideal) (φ := .f32) (FloatOps.addf (F := Ideal) (φ := .f32) (∑ p : Fin 128, row p * W1 p l) (b1 l))
    (Ideal.ofBits .f32 0x00000000#32)

/-- Second hidden layer at unit `k`. -/
def hidden2 (k : Fin 32) : Ideal .f32 :=
  FloatOps.maximumf (F := Ideal) (φ := .f32)
    (FloatOps.addf (F := Ideal) (φ := .f32) (∑ l : Fin 64, hidden1 W1 b1 row l * W2 l k) (b2 k))
    (Ideal.ofBits .f32 0x00000000#32)

/-- The output layer's one number. -/
def logit : Ideal .f32 :=
  FloatOps.addf (F := Ideal) (φ := .f32) (∑ k : Fin 32, hidden2 W1 b1 W2 b2 row k * W3 k) b3

/-- The edge's score: the logistic of the logit. -/
def score : Ideal .f32 := FloatOps.logistic (F := Ideal) (φ := .f32) (logit W1 b1 W2 b2 W3 b3 row)

/-- The gate: one where the score is below the threshold `0x3F333333` and zero elsewhere, times `1 − score`. -/
def gate : Ideal .f32 :=
  FloatOps.mulf (F := Ideal) (φ := .f32)
    (FloatOps.uitofp (F := Ideal) .f32
      (FloatOps.cmpf (F := Ideal) (φ := .f32) .olt (score W1 b1 W2 b2 W3 b3 row) (Ideal.ofBits .f32 0x3F333333#32)))
    (FloatOps.subf (F := Ideal) (φ := .f32) (Ideal.ofBits .f32 0x3F800000#32) (score W1 b1 W2 b2 W3 b3 row))

/-- The signal the edge sends along column `j`: the step `0x3D4CCCCD` times the gated `tanh` of the row's entry. -/
def signal (j : Fin 128) : Ideal .f32 :=
  FloatOps.mulf (F := Ideal) (φ := .f32) (Ideal.ofBits .f32 0x3D4CCCCD#32)
    (FloatOps.mulf (F := Ideal) (φ := .f32) (gate W1 b1 W2 b2 W3 b3 row) (FloatOps.tanh (F := Ideal) (φ := .f32) (row j)))

/-- The logistic, spelt as the host spells it: `1 / (1 + exp (−x))` with both ones the printed pattern. -/
theorem logistic_spelt (x : Ideal .f32) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x)))
      = FloatOps.logistic (F := Ideal) (φ := .f32) x := by
  rw [ofBits_one]; rfl

end Row

end Cert.EdgeGate

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelRow.lean ====
/-
  One row of the kernel body's block, read off its two output buffers.

  The body works on a block of 8000 rows by 128 columns and on the whole weight arrays. Every operation in it is
  either pointwise or acts along a row: the two matrix products contract a row of the left factor against a column
  of the weights, the bias rows are repeated over all 8000 rows, the last layer is a product with a repeated weight
  row followed by a sum along the row, and the resulting column is repeated over the 128 columns before it meets the
  block's own `tanh`. So the entry `(p, ·)` of either output depends on row `p` of the block only, and is the
  specification's function of that row:

    hidden1 = max (row · W1 + b1) 0,  hidden2 = max (hidden1 · W2 + b2) 0,  logit = ∑ k, hidden2 k * W3 k + b3,
    score = logistic logit,  gate = [score < 0.7] · (1 − score),  signal j = 0.05 · (gate · tanh (row j)).

  The proof follows the layers. The block's three stages (first hidden layer, second hidden layer, logit column) are
  named as whole-block terms so that the score payload is, definitionally, the logistic of their composition; each
  stage is then read at an index `(p, ·)` with its input as a variable, and the readings are chained. At the ideal
  values the narrowing to the short float format before each product is the identity, a product into the zero
  accumulator is the plain sum of products, and the one-bit comparison widened to a word and converted signed is the
  same bit converted unsigned, which is how the specification spells the gate's indicator.
-/
import proofs.«174250_j85856396247191_1_alg».proof.Proof.Gen.KernelIdeal.Frame
import proofs.«174250_j85856396247191_1_alg».proof.Proof.Spec
import proofs.«174250_j85856396247191_1_alg».proof.Proof.LibRowOps
import proofs.«174250_j85856396247191_1_alg».proof.Proof.LibColumn
import Idealize.ShloMosaic.Lib.ValueIdx
import Idealize.ShloMosaic.Lib.ValueLayout
import Idealize.ShloMosaic.Lib.Pipeline.Value
import Idealize.ShloMosaic.Lib.KernelVsHost

noncomputable section
namespace Cert.KernelIdeal.RowValue
open Idealize.ShloMosaic Idealize.ShloMosaic.ValueIdx Cert.KernelIdeal Cert.KernelIdeal.Gen
open Cert.LibRowOps Cert.LibColumn

/-- The rectangles' offsets, however the two zeros are spelt, are the zero function. -/
theorem offsets_zero : (![0, 0] : Fin 2 → Nat) = fun _ => 0 := funext fun a => by fin_cases a <;> rfl

/-- The first product's dimension numbers are the plain ones: the left factor's columns are contracted with the right
    factor's rows. -/
theorem dot1_plain : dot_S8000x128_S128x64_S8000x64_1_0_0_1_n_n = DotDims.plain 8000 128 64 := rfl

/-- So are the second product's. -/
theorem dot2_plain : dot_S8000x64_S64x32_S8000x32_1_0_0_1_n_n = DotDims.plain 8000 64 32 := rfl

/-- The first hidden layer over the whole block: the block times the `[128, 64]` weights into a zero accumulator,
    plus the bias row repeated over the rows, clipped below at zero. -/
def blockHidden1 (x0 : Vec Ideal S8000x128 .f32) (x1 : Vec Ideal S128x64 .f32) (x2 : Vec Ideal S1x64 .f32) :
    FVec Ideal S8000x64 .f32 :=
  maximumf
    (addf
      (matmul dot_S8000x128_S128x64_S8000x64_1_0_0_1_n_n none (truncf .bf16 (k0_pay2 x0) bitsLt_bf16_f32)
        (truncf .bf16 x1 bitsLt_bf16_f32) (constant S8000x64 .f32 0x00000000#32))
      (broadcastTo S8000x64 (shapeCast S1x64 x2 shapeCasts_S1x64_S1x64) broadcasts_S1x64_S8000x64))
    (broadcast S8000x64 (Scalar.ofBits .f32 0x00000000#32))

/-- The second hidden layer over the whole block, from the first one's `[8000, 64]` values. -/
def blockHidden2 (h1 : FVec Ideal S8000x64 .f32) (x3 : Vec Ideal S64x32 .f32) (x4 : Vec Ideal S1x32 .f32) :
    FVec Ideal S8000x32 .f32 :=
  maximumf
    (addf
      (matmul dot_S8000x64_S64x32_S8000x32_1_0_0_1_n_n none (truncf .bf16 h1 bitsLt_bf16_f32)
        (truncf .bf16 x3 bitsLt_bf16_f32) (constant S8000x32 .f32 0x00000000#32))
      (broadcastTo S8000x32 (shapeCast S1x32 x4 shapeCasts_S1x32_S1x32) broadcasts_S1x32_S8000x32))
    (broadcast S8000x32 (Scalar.ofBits .f32 0x00000000#32))

/-- The logit column `[8000, 1]`: the second layer's values times the last weight row repeated over the rows,
    summed along each row, turned into a column, plus the `[1, 1]` bias repeated down the column. -/
def blockLogit (h2 : FVec Ideal S8000x32 .f32) (x5 : Vec Ideal S1x32 .f32) (x6 : Vec Ideal S1x1 .f32) :
    FVec Ideal S8000x1 .f32 :=
  addf
    (shapeCast S8000x1
      (multiReduction .add [1] S8000
        (mulf h2 (broadcastTo S8000x32 (shapeCast S1x32 x5 shapeCasts_S1x32_S1x32) broadcasts_S1x32_S8000x32))
        0x00000000#32 reduces_S8000x32_S8000 (.inl rfl) rfl)
      shapeCasts_S8000_S8000x1)
    (broadcastTo S8000x1 (shapeCast S1x1 x6 shapeCasts_S1x1_S1x1) broadcasts_S1x1_S8000x1)

/-- The score payload is the logistic of the three stages composed. -/
theorem pay3_eq (x0 : Vec Ideal S8000x128 .f32) (x1 : Vec Ideal S128x64 .f32) (x2 : Vec Ideal S1x64 .f32)
    (x3 : Vec Ideal S64x32 .f32) (x4 : Vec Ideal S1x32 .f32) (x5 : Vec Ideal S1x32 .f32) (x6 : Vec Ideal S1x1 .f32) :
    k0_pay3 (F := Ideal) x0 x1 x2 x3 x4 x5 x6
      = logistic (blockLogit (blockHidden2 (blockHidden1 x0 x1 x2) x3 x4) x5 x6) := rfl

/-- The first hidden layer at `(p, l)` is the specification's, of row `p`: the product reads row `p` against column `l`
    (the cast of the block to its own shape and the narrowing are identities), and the repeated bias row reads its
    entry `l`. -/
theorem blockHidden1_apply (x0 : Vec Ideal S8000x128 .f32) (x1 : Vec Ideal S128x64 .f32) (x2 : Vec Ideal S1x64 .f32)
    (p : Fin 8000) (l : Fin 64) :
    blockHidden1 x0 x1 x2 (ix2 p l)
      = Cert.EdgeGate.hidden1 (fun a l => x1 (ix2 a l)) (fun l => x2 (ix2 (0 : Fin 1) l)) (fun a => x0 (ix2 p a)) l := by
  have e1 : matmul dot_S8000x128_S128x64_S8000x64_1_0_0_1_n_n none (truncf .bf16 (k0_pay2 x0) bitsLt_bf16_f32)
        (truncf .bf16 x1 bitsLt_bf16_f32) (constant (F := Ideal) S8000x64 .f32 0x00000000#32) (ix2 p l)
      = ∑ a : Fin 128, x0 (ix2 p a) * x1 (ix2 a l) := by
    rw [dot1_plain]
    refine (matmul_plain_zero_apply 8000 128 64 _ _ p l).trans ?_
    refine Finset.sum_congr rfl fun a _ => ?_
    show shapeCast S8000x128 x0 shapeCasts_S8000x128_S8000x128 (ix2 p a) * x1 (ix2 a l) = _
    rw [shapeCast_self]
  have e2 : broadcastTo S8000x64 (shapeCast S1x64 x2 shapeCasts_S1x64_S1x64) broadcasts_S1x64_S8000x64 (ix2 p l)
      = x2 (ix2 (0 : Fin 1) l) := by
    rw [broadcastTo_1b_ab_apply, shapeCast_self]
  unfold blockHidden1 Cert.EdgeGate.hidden1
  rw [maximumf_apply, addf_apply, e1, e2]
  rfl

/-- The second hidden layer at `(p, k)`, from any first-layer values: row `p` of them against column `k` of the
    weights, plus the bias entry `k`, clipped below at zero. -/
theorem blockHidden2_apply (h1 : FVec Ideal S8000x64 .f32) (x3 : Vec Ideal S64x32 .f32) (x4 : Vec Ideal S1x32 .f32)
    (p : Fin 8000) (k : Fin 32) :
    blockHidden2 h1 x3 x4 (ix2 p k)
      = FloatOps.maximumf (F := Ideal) (φ := .f32)
          (FloatOps.addf (F := Ideal) (φ := .f32) (∑ l : Fin 64, h1 (ix2 p l) * x3 (ix2 l k)) (x4 (ix2 (0 : Fin 1) k)))
          (Ideal.ofBits .f32 0x00000000#32) := by
  have e1 : matmul dot_S8000x64_S64x32_S8000x32_1_0_0_1_n_n none (truncf .bf16 h1 bitsLt_bf16_f32)
        (truncf .bf16 x3 bitsLt_bf16_f32) (constant (F := Ideal) S8000x32 .f32 0x00000000#32) (ix2 p k)
      = ∑ l : Fin 64, h1 (ix2 p l) * x3 (ix2 l k) := by
    rw [dot2_plain]
    exact matmul_plain_zero_apply 8000 64 32 _ _ p k
  have e2 : broadcastTo S8000x32 (shapeCast S1x32 x4 shapeCasts_S1x32_S1x32) broadcasts_S1x32_S8000x32 (ix2 p k)
      = x4 (ix2 (0 : Fin 1) k) := by
    rw [broadcastTo_1b_ab_apply, shapeCast_self]
  unfold blockHidden2
  rw [maximumf_apply, addf_apply, e1, e2]
  rfl

/-- The logit column at `(p, u)`, from any second-layer values: the sum over `k` of row `p` times the weight row,
    plus the bias. The unit coordinate `u` can only be `0`. -/
theorem blockLogit_apply (h2 : FVec Ideal S8000x32 .f32) (x5 : Vec Ideal S1x32 .f32) (x6 : Vec Ideal S1x1 .f32)
    (p : Fin 8000) (u : Fin 1) :
    blockLogit h2 x5 x6 (ix2 p u)
      = FloatOps.addf (F := Ideal) (φ := .f32) (∑ k : Fin 32, h2 (ix2 p k) * x5 (ix2 (0 : Fin 1) k))
          (x6 (ix2 (0 : Fin 1) (0 : Fin 1))) := by
  obtain rfl : u = 0 := Subsingleton.elim _ _
  unfold blockLogit
  rw [addf_apply, shapeCast_a_a1_apply]
  refine congrArg₂ (· + ·) ((rowSum_apply _ _ _ _ _ p).trans (Finset.sum_congr rfl fun k _ => ?_)) ?_
  · rw [mulf_apply, broadcastTo_1b_ab_apply, shapeCast_self]
  · rw [broadcastTo_1b_ab_apply, shapeCast_self]

/-- The score payload at `(p, u)` is the specification's score of row `p`: the three readings chained, each layer's
    reading rewritten under the next layer's sum. -/
theorem pay3_apply (x0 : Vec Ideal S8000x128 .f32) (x1 : Vec Ideal S128x64 .f32) (x2 : Vec Ideal S1x64 .f32)
    (x3 : Vec Ideal S64x32 .f32) (x4 : Vec Ideal S1x32 .f32) (x5 : Vec Ideal S1x32 .f32) (x6 : Vec Ideal S1x1 .f32)
    (p : Fin 8000) (u : Fin 1) :
    k0_pay3 (F := Ideal) x0 x1 x2 x3 x4 x5 x6 (ix2 p u)
      = Cert.EdgeGate.score (fun a l => x1 (ix2 a l)) (fun l => x2 (ix2 (0 : Fin 1) l)) (fun l k => x3 (ix2 l k))
          (fun k => x4 (ix2 (0 : Fin 1) k)) (fun k => x5 (ix2 (0 : Fin 1) k)) (x6 (ix2 (0 : Fin 1) (0 : Fin 1)))
          (fun a => x0 (ix2 p a)) := by
  rw [pay3_eq]
  unfold Cert.EdgeGate.score Cert.EdgeGate.logit
  show FloatOps.logistic (blockLogit (blockHidden2 (blockHidden1 x0 x1 x2) x3 x4) x5 x6 (ix2 p u)) = _
  rw [blockLogit_apply]
  refine congrArg (fun s => FloatOps.logistic (FloatOps.addf s _)) (Finset.sum_congr rfl fun k _ => ?_)
  refine congrArg (· * x5 (ix2 (0 : Fin 1) k)) ?_
  rw [blockHidden2_apply]
  unfold Cert.EdgeGate.hidden2
  refine congrArg (fun s => FloatOps.maximumf (FloatOps.addf s _) _) (Finset.sum_congr rfl fun l _ => ?_)
  rw [blockHidden1_apply]

/-- The block cast to its own shape is the block. -/
theorem pay2_eq (x0 : Vec Ideal S8000x128 .f32) : k0_pay2 (F := Ideal) x0 = x0 :=
  shapeCast_self x0 shapeCasts_S8000x128_S8000x128

/-- The signal payload at `(p, j)`, from any block `v1` and any three columns: the step constant times the column
    product `v36 · (v37 − v32)` of row `p`, repeated along the row, times `tanh` of the block's entry. -/
theorem pay1_apply (v1 : FVec Ideal S8000x128 .f32) (v32 v36 v37 : FVec Ideal S8000x1 .f32) (p : Fin 8000) (j : Fin 128) :
    k0_pay1 v1 v32 v36 v37 (ix2 p j)
      = FloatOps.mulf (F := Ideal) (φ := .f32) (Ideal.ofBits .f32 0x3D4CCCCD#32)
          (FloatOps.mulf (F := Ideal) (φ := .f32)
            (FloatOps.mulf (F := Ideal) (φ := .f32) (v36 (ix2 p (0 : Fin 1)))
              (FloatOps.subf (F := Ideal) (φ := .f32) (v37 (ix2 p (0 : Fin 1))) (v32 (ix2 p (0 : Fin 1)))))
            (FloatOps.tanh (F := Ideal) (φ := .f32) (v1 (ix2 p j)))) := by
  unfold k0_pay1
  show FloatOps.mulf _
      (FloatOps.mulf (broadcastTo S8000x128 (mulf v36 (subf v37 v32)) broadcasts_S8000x1_S8000x128 (ix2 p j)) _) = _
  rw [broadcastTo_a1_ab_apply]
  rfl

/-- The indicator payload at `(p, u)`: the one-bit comparison of the score with the threshold, converted unsigned. -/
theorem pay4_apply (x0 : Vec Ideal S8000x128 .f32) (x1 : Vec Ideal S128x64 .f32) (x2 : Vec Ideal S1x64 .f32)
    (x3 : Vec Ideal S64x32 .f32) (x4 : Vec Ideal S1x32 .f32) (x5 : Vec Ideal S1x32 .f32) (x6 : Vec Ideal S1x1 .f32)
    (p : Fin 8000) (u : Fin 1) :
    k0_pay4 (F := Ideal) x0 x1 x2 x3 x4 x5 x6 (ix2 p u)
      = FloatOps.uitofp (F := Ideal) .f32
          (FloatOps.cmpf (F := Ideal) (φ := .f32) .olt (k0_pay3 (F := Ideal) x0 x1 x2 x3 x4 x5 x6 (ix2 p u))
            (Ideal.ofBits .f32 0x3F333333#32)) := by
  unfold k0_pay4
  show (sitofp .f32 (extui 32 (cmpf .olt (k0_pay3 (F := Ideal) x0 x1 x2 x3 x4 x5 x6)
      (broadcast S8000x1 (Scalar.ofBits .f32 0x3F333333#32))) natLt_1_32) : FVec Ideal S8000x1 .f32) (ix2 p u) = _
  rw [sitofp_extui_eq_uitofp]
  rfl

/-- The score buffer after the body: one store through the whole buffer leaves its payload, and every load through a
    whole-array rectangle reads the array, so entry `(p, u)` is the score of row `p`. -/
theorem score_block (x0 : Vec Ideal S8000x128 .f32) (x1 : Vec Ideal S128x64 .f32) (x2 : Vec Ideal S1x64 .f32)
    (x3 : Vec Ideal S64x32 .f32) (x4 : Vec Ideal S1x32 .f32) (x5 : Vec Ideal S1x32 .f32) (x6 : Vec Ideal S1x1 .f32)
    (p : Fin 8000) (u : Fin 1) :
    out0_8 (F := Ideal) x0 x1 x2 x3 x4 x5 x6 (ix2 p u)
      = Cert.EdgeGate.score (fun a l => x1 (ix2 a l)) (fun l => x2 (ix2 (0 : Fin 1) l)) (fun l k => x3 (ix2 l k))
          (fun k => x4 (ix2 (0 : Fin 1) k)) (fun k => x5 (ix2 (0 : Fin 1) k)) (x6 (ix2 (0 : Fin 1) (0 : Fin 1)))
          (fun a => x0 (ix2 p a)) := by
  unfold out0_8
  rw [View.canon_unit_zero offsets_zero]
  simp only [View.ld_unit_zero (S := S8000x128) offsets_zero, View.ld_unit_zero (S := S128x64) offsets_zero,
    View.ld_unit_zero (S := S1x64) offsets_zero, View.ld_unit_zero (S := S64x32) offsets_zero,
    View.ld_unit_zero (S := S1x32) offsets_zero, View.ld_unit_zero (S := S1x1) offsets_zero]
  exact pay3_apply x0 x1 x2 x3 x4 x5 x6 p u

/-- The signal buffer after the body: entry `(p, j)` is the specification's signal of row `p` at column `j`. The three
    columns the payload takes are the score, the indicator and the constant one, each read at `(p, 0)`. -/
theorem signal_block (x0 : Vec Ideal S8000x128 .f32) (x1 : Vec Ideal S128x64 .f32) (x2 : Vec Ideal S1x64 .f32)
    (x3 : Vec Ideal S64x32 .f32) (x4 : Vec Ideal S1x32 .f32) (x5 : Vec Ideal S1x32 .f32) (x6 : Vec Ideal S1x1 .f32)
    (p : Fin 8000) (j : Fin 128) :
    out0_7 (F := Ideal) x0 x1 x2 x3 x4 x5 x6 (ix2 p j)
      = Cert.EdgeGate.signal (fun a l => x1 (ix2 a l)) (fun l => x2 (ix2 (0 : Fin 1) l)) (fun l k => x3 (ix2 l k))
          (fun k => x4 (ix2 (0 : Fin 1) k)) (fun k => x5 (ix2 (0 : Fin 1) k)) (x6 (ix2 (0 : Fin 1) (0 : Fin 1)))
          (fun a => x0 (ix2 p a)) j := by
  unfold out0_7
  rw [View.canon_unit_zero offsets_zero]
  simp only [View.ld_unit_zero (S := S8000x128) offsets_zero, View.ld_unit_zero (S := S128x64) offsets_zero,
    View.ld_unit_zero (S := S1x64) offsets_zero, View.ld_unit_zero (S := S64x32) offsets_zero,
    View.ld_unit_zero (S := S1x32) offsets_zero, View.ld_unit_zero (S := S1x1) offsets_zero]
  rw [pay1_apply, pay4_apply, pay3_apply, pay2_eq]
  rfl

end Cert.KernelIdeal.RowValue
end
-- ==== Proof.KernelArrays.lean ====
/-
  From the blocks of the grid to the two result arrays.

  The kernel runs over 100 grid points. Point `t` sees rows `8000 t … 8000 t + 7999` of the edge feature matrix
  (800000 rows of 128 numbers, one row per edge) and the six weight arrays whole: at every point the block index of a
  weight array is `(0, 0)` and its block has the array's own extents, so the block IS the array. It leaves, for the same
  8000 rows, a block of the signal array (128 columns) and a block of the score column. By the row lemmas, entry
  `(p, ·)` of either output block is the edge arithmetic of row `p` of the feature block, which is row `8000 t + p` of
  the matrix; and entry `(p, ·)` of output block `t` sits in the array at row `8000 t + p` as well. So what point `t`
  writes back is block `t` of ONE function of the whole arrays: the score (the signal) of every edge's own row.
  Row `r` lies in block `r / 8000`, and every point writes its blocks back, so the 100 blocks cover both arrays and
  after the run each array holds that function everywhere.
-/
import proofs.«174250_j85856396247191_1_alg».proof.Proof.Gen.KernelIdeal.Frame
import proofs.«174250_j85856396247191_1_alg».proof.Proof.KernelRow
import Idealize.ShloMosaic.Lib.Pipeline.Value
import Idealize.ShloMosaic.Lib.ValueIdx

set_option maxRecDepth 16384
noncomputable section
namespace Cert.KernelIdeal.ArrayValue
open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The score column the run should leave: at row `i 0`, the score of that edge's row of the feature matrix under the
    weights as the region finds them. -/
def scoreArr (c : Dev nD) : S800000x1.Idx → Ideal .f32 := fun i =>
  Cert.EdgeGate.score (fun a l => V m c main_arg4 (ix2 a l)) (fun l => V m c main_v19 (ix2 (0 : Fin 1) l)) (fun l k => V m c main_arg6 (ix2 l k)) (fun k => V m c main_v20 (ix2 (0 : Fin 1) k)) (fun k => V m c main_v21 (ix2 (0 : Fin 1) k)) (V m c main_v22 (ix2 (0 : Fin 1) (0 : Fin 1))) (fun a => V m c main_v18 (ix2 (i 0) a))

/-- The signal array the run should leave: at `(i 0, i 1)`, the signal edge `i 0` sends along column `i 1`. -/
def signalArr (c : Dev nD) : S800000x128.Idx → Ideal .f32 := fun i =>
  Cert.EdgeGate.signal (fun a l => V m c main_arg4 (ix2 a l)) (fun l => V m c main_v19 (ix2 (0 : Fin 1) l)) (fun l k => V m c main_arg6 (ix2 l k)) (fun k => V m c main_v20 (ix2 (0 : Fin 1) k)) (fun k => V m c main_v21 (ix2 (0 : Fin 1) k)) (V m c main_v22 (ix2 (0 : Fin 1) (0 : Fin 1))) (fun a => V m c main_v18 (ix2 (i 0) a)) (i 1)

/-! ## Which block each point holds -/

/-- The feature matrix moves with the grid: point `t` holds its block `(t, 0)`. -/
theorem edge_rows_index : ∀ t : Fin cfg0.N,
    win0_0.index t (0 : Fin 2) = t.val ∧ win0_0.index t (1 : Fin 2) = 0 :=
  (by decide +kernel : ∀ t : Fin grid0.N, _)

/-- The six weight arrays stay put: every point holds block `(0, 0)` of each. -/
theorem weights_index : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Both outputs move with the grid like the feature matrix: point `t` writes block `(t, 0)` of each. -/
theorem outputs_index : ∀ t : Fin cfg0.N,
    win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- There are 100 points. -/
theorem point_lt (t : Fin cfg0.N) : t.val < 100 := t.isLt

/-! ## The input blocks, read off the arrays

An element `y` of a block sits in the array, on each axis, at block index × block extent + `y`'s coordinate. With
block index zero and the block as large as the array that is `y` itself. -/

/-- The first layer's weights `W1` are whole at every point. -/
theorem W1_block (c : Dev nD) (t : Fin cfg0.N) : iblk m c 1 t = V m c main_arg4 := by
  obtain ⟨e0, e1, -⟩ := weights_index t
  funext y
  show V m c main_arg4 (((cfg0.win 1).blk t).view.emb y) = V m c main_arg4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The first layer's bias `b1` is whole at every point. -/
theorem b1_block (c : Dev nD) (t : Fin cfg0.N) : iblk m c 2 t = V m c main_v19 := by
  obtain ⟨-, -, e0, e1, -⟩ := weights_index t
  funext y
  show V m c main_v19 (((cfg0.win 2).blk t).view.emb y) = V m c main_v19 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second layer's weights `W2` are whole at every point. -/
theorem W2_block (c : Dev nD) (t : Fin cfg0.N) : iblk m c 3 t = V m c main_arg6 := by
  obtain ⟨-, -, -, -, e0, e1, -⟩ := weights_index t
  funext y
  show V m c main_arg6 (((cfg0.win 3).blk t).view.emb y) = V m c main_arg6 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 32 + 1 * (y 1).val = (y 1).val; omega

/-- The second layer's bias `b2` is whole at every point. -/
theorem b2_block (c : Dev nD) (t : Fin cfg0.N) : iblk m c 4 t = V m c main_v20 := by
  obtain ⟨-, -, -, -, -, -, e0, e1, -⟩ := weights_index t
  funext y
  show V m c main_v20 (((cfg0.win 4).blk t).view.emb y) = V m c main_v20 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- The output layer's weights `W3` are whole at every point. -/
theorem W3_block (c : Dev nD) (t : Fin cfg0.N) : iblk m c 5 t = V m c main_v21 := by
  obtain ⟨-, -, -, -, -, -, -, -, e0, e1, -⟩ := weights_index t
  funext y
  show V m c main_v21 (((cfg0.win 5).blk t).view.emb y) = V m c main_v21 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- The output layer's bias `b3` is whole at every point. -/
theorem b3_block (c : Dev nD) (t : Fin cfg0.N) : iblk m c 6 t = V m c main_v22 := by
  obtain ⟨-, -, -, -, -, -, -, -, -, -, e0, e1⟩ := weights_index t
  funext y
  show V m c main_v22 (((cfg0.win 6).blk t).view.emb y) = V m c main_v22 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Row `p` of the feature block at point `t` is row `8000 t + p` of the feature matrix. -/
theorem edge_row_block (c : Dev nD) (t : Fin cfg0.N) (p : Fin 8000) (a : Fin 128) (h : t.val * 8000 + p.val < 800000) :
    iblk m c 0 t (ix2 p a) = V m c main_v18 (ix2 (⟨t.val * 8000 + p.val, h⟩ : Fin 800000) a) := by
  obtain ⟨e0, e1⟩ := edge_rows_index t
  show V m c main_v18 (((cfg0.win 0).blk t).view.emb (ix2 p a)) = _
  refine congrArg _ (funext fun d => Fin.ext ?_)
  match d with
  | ⟨0, _⟩ => show win0_0.index t (0 : Fin 2) * 8000 + 1 * p.val = t.val * 8000 + p.val; omega
  | ⟨1, _⟩ => show win0_0.index t (1 : Fin 2) * 128 + 1 * a.val = a.val; omega

/-! ## What a point writes back

Entry `(p, ·)` of an output block is the edge arithmetic of row `p` of the feature block under the weight blocks (the row
lemmas). The weight blocks are the weights, row `p` of the feature block is row `8000 t + p` of the matrix, and the
entry's place in the output array is row `8000 t + p` too: the block is block `t` of the whole-array function. -/

/-- Point `t` writes back block `t` of the score column `scoreArr`. -/
theorem score_flushed (c : Dev nD) (t : Fin cfg0.N) :
    (dats m 0 c).flushed 8 t = ((cfg0.win 8).blk t).view.read (Elt Ideal) (scoreArr m c) := by
  show (cfg0.win 8).cut (grid0.coords t) ((dats m 0 c).after 8 t) = _
  rw [after0_8]
  funext y
  obtain ⟨p, u, rfl⟩ : ∃ (p : Fin 8000) (u : Fin 1), y = ix2 p u := ⟨y 0, y 1, eq_ix2 y⟩
  refine (Cert.KernelIdeal.RowValue.score_block (iblk m c 0 t) (iblk m c 1 t) (iblk m c 2 t) (iblk m c 3 t)
    (iblk m c 4 t) (iblk m c 5 t) (iblk m c 6 t) p u).trans ?_
  have hp : t.val * 8000 + p.val < 800000 := by have := point_lt t; have := p.isLt; omega
  -- where the entry sits in the array
  have hrow : ((cfg0.win 8).blk t).view.emb (ix2 p u) = ix2 (⟨t.val * 8000 + p.val, hp⟩ : Fin 800000) (0 : Fin 1) := by
    obtain ⟨-, -, e0, e1⟩ := outputs_index t
    funext d; apply Fin.ext
    match d with
    | ⟨0, _⟩ => show win0_8.index t (0 : Fin 2) * 8000 + 1 * p.val = t.val * 8000 + p.val; omega
    | ⟨1, _⟩ => show win0_8.index t (1 : Fin 2) * 1 + 1 * u.val = 0; omega
  -- the edge's row, read off the matrix
  have hfeat : (fun a => iblk m c 0 t (ix2 p a)) = fun a => V m c main_v18 (ix2 (⟨t.val * 8000 + p.val, hp⟩ : Fin 800000) a) :=
    funext fun a => edge_row_block m c t p a hp
  show _ = scoreArr m c (((cfg0.win 8).blk t).view.emb (ix2 p u))
  rw [hrow, hfeat, W1_block m c t, b1_block m c t, W2_block m c t, b2_block m c t, W3_block m c t, b3_block m c t]
  rfl

/-- Point `t` writes back block `t` of the signal array `signalArr`. -/
theorem signal_flushed (c : Dev nD) (t : Fin cfg0.N) :
    (dats m 0 c).flushed 7 t = ((cfg0.win 7).blk t).view.read (Elt Ideal) (signalArr m c) := by
  show (cfg0.win 7).cut (grid0.coords t) ((dats m 0 c).after 7 t) = _
  rw [after0_7]
  funext y
  obtain ⟨p, j, rfl⟩ : ∃ (p : Fin 8000) (j : Fin 128), y = ix2 p j := ⟨y 0, y 1, eq_ix2 y⟩
  refine (Cert.KernelIdeal.RowValue.signal_block (iblk m c 0 t) (iblk m c 1 t) (iblk m c 2 t) (iblk m c 3 t)
    (iblk m c 4 t) (iblk m c 5 t) (iblk m c 6 t) p j).trans ?_
  have hp : t.val * 8000 + p.val < 800000 := by have := point_lt t; have := p.isLt; omega
  -- where the entry sits in the array: same row, same column
  have hrow : ((cfg0.win 7).blk t).view.emb (ix2 p j) = ix2 (⟨t.val * 8000 + p.val, hp⟩ : Fin 800000) j := by
    obtain ⟨e0, e1, -⟩ := outputs_index t
    funext d; apply Fin.ext
    match d with
    | ⟨0, _⟩ => show win0_7.index t (0 : Fin 2) * 8000 + 1 * p.val = t.val * 8000 + p.val; omega
    | ⟨1, _⟩ => show win0_7.index t (1 : Fin 2) * 128 + 1 * j.val = j.val; omega
  -- the edge's row, read off the matrix
  have hfeat : (fun a => iblk m c 0 t (ix2 p a)) = fun a => V m c main_v18 (ix2 (⟨t.val * 8000 + p.val, hp⟩ : Fin 800000) a) :=
    funext fun a => edge_row_block m c t p a hp
  show _ = signalArr m c (((cfg0.win 7).blk t).view.emb (ix2 p j))
  rw [hrow, hfeat, W1_block m c t, b1_block m c t, W2_block m c t, b2_block m c t, W3_block m c t, b3_block m c t]
  rfl

/-! ## The blocks cover the arrays -/

/-- An index of the score column is in point `t`'s block iff each coordinate is in the block's range on its axis. -/
theorem mem_score_block (t : Fin cfg0.N) (i : S800000x1.Idx) :
    i ∈ ((cfg0.win 8).blk t).view.set ↔ ∀ a : Fin 2, win0_8.index t a * S8000x1.size a ≤ (i a).val ∧ (i a).val < win0_8.index t a * S8000x1.size a + S8000x1.size a := by
  show i ∈ ((View.whole main_v23_1).slice (win0_8.rect t)).set ↔ _
  rw [View.set_slice_whole, Rect.mem_set_unit]
  exact Iff.rfl

/-- An index of the signal array is in point `t`'s block iff each coordinate is in the block's range on its axis. -/
theorem mem_signal_block (t : Fin cfg0.N) (i : S800000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v23_0).slice (win0_7.rect t)).set ↔ _
  rw [View.set_slice_whole, Rect.mem_set_unit]
  exact Iff.rfl

/-- Row `r` of the score column is written by point `r / 8000`: `8000 (r / 8000) ≤ r < 8000 (r / 8000) + 8000`. -/
theorem score_cover (i : S800000x1.Idx) :
    ∃ t : Fin cfg0.N, (cfg0.win 8).flush t = true ∧ i ∈ ((cfg0.win 8).blk t).view.set := by
  have hi0 : (i 0).val < 800000 := (i 0).isLt
  have hi1 : (i 1).val < 1 := (i 1).isLt
  obtain ⟨t, ht⟩ : ∃ t : Fin cfg0.N, t.val = (i 0).val / 8000 :=
    ⟨⟨(i 0).val / 8000, (by omega : (i 0).val / 8000 < 100)⟩, rfl⟩
  obtain ⟨-, -, e0, e1⟩ := outputs_index t
  refine ⟨t, flush0_8 t, ?_⟩
  rw [mem_score_block]
  intro a
  match a with
  | ⟨0, _⟩ => show win0_8.index t (0 : Fin 2) * 8000 ≤ (i 0).val ∧ (i 0).val < win0_8.index t (0 : Fin 2) * 8000 + 8000; omega
  | ⟨1, _⟩ => show win0_8.index t (1 : Fin 2) * 1 ≤ (i 1).val ∧ (i 1).val < win0_8.index t (1 : Fin 2) * 1 + 1; omega

/-- Row `r` of the signal array is written by point `r / 8000`, all 128 columns of it. -/
theorem signal_cover (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ : ∃ t : Fin cfg0.N, t.val = (i 0).val / 8000 :=
    ⟨⟨(i 0).val / 8000, (by omega : (i 0).val / 8000 < 100)⟩, rfl⟩
  obtain ⟨e0, e1, -⟩ := outputs_index t
  refine ⟨t, flush0_7 t, ?_⟩
  rw [mem_signal_block]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 128 ≤ (i 1).val ∧ (i 1).val < win0_7.index t (1 : Fin 2) * 128 + 128; omega

/-! ## The arrays after the run -/

/-- After the run the score column holds every edge's score. -/
theorem final8 (c : Dev nD) : (dats m 0 c).arrAt 8 cfg0.N = scoreArr m c := by
  exact (dats m 0 c).arrAt_eq_of_cover 8 (scoreArr m c) (fun t _ => score_flushed m c t) score_cover

/-- After the run the signal array holds every edge's signal along every column. -/
theorem final7 (c : Dev nD) : (dats m 0 c).arrAt 7 cfg0.N = signalArr m c := by
  exact (dats m 0 c).arrAt_eq_of_cover 7 (signalArr m c) (fun t _ => signal_flushed m c t) signal_cover

end Cert.KernelIdeal.ArrayValue
end
-- ==== Proof.RefRow.lean ====
/-
  The reference program, read one edge at a time.

  The reference computes every edge's numbers from the edge's own row of the gathered feature matrix and from the
  weights alone. Written out at an entry `(r, ·)`, each of its stages is the corresponding piece of the one-row
  specification applied to row `r` of the feature matrix:

    * the first layer's clipped affine map at `(r, l)` is `hidden1 l` (a sum over the row's 128 entries against
      column `l` of the first weight matrix, plus the bias read through its `[64] → [1, 64] → [800000, 64]`
      broadcasts, and the maximum with a broadcast zero);
    * the second layer at `(r, k)` is `hidden2 k`, in the same way;
    * the third layer at `(r, 0)` is `logit`, and the four operations `1 / (1 + exp (−·))` after it are its logistic,
      `score`;
    * the comparison with the threshold, turned into a number, times `1 − score` is `gate`;
    * the gate spread along the row and multiplied by the hyperbolic tangent of the row's entry, and then by the
      step constant, is `signal`: columns `0 … 63` make the first update array, columns `64 … 127` the second.

  The only work is bookkeeping of indices: each stage reads its operands at an index computed from the literal shapes,
  and at `(r, j)` these computed indices are again of the form `(r, ·)`, `(·, j)` or `(0, j)`.
-/
import proofs.«174250_j85856396247191_1_alg».proof.Proof.Gen.ReferenceIdeal.Read
import proofs.«174250_j85856396247191_1_alg».proof.Proof.Spec
import Idealize.ShloMosaic.Lib.ValueIdx
import Idealize.ShloMosaic.Lib.ValueLayout

noncomputable section
namespace Cert.ReferenceIdeal.RowValue
open Idealize.ShloMosaic Idealize.ShloMosaic.ValueIdx Cert.ReferenceIdeal Cert.ReferenceIdeal.Read

/-! ## Where each stage reads its operands, at an entry `(r, ·)` -/

section Indices

/-- First layer: entry `(r, l)` of the product reads the feature matrix along row `r`. -/
theorem lidx19 (r : Fin 800000) (l : Fin 64) (k : Fin 128) : lidx_main_v19 (ix2 r l) k = ix2 r k :=
  funext fun a => Fin.ext (by match a with | ⟨0, _⟩ => rfl | ⟨1, _⟩ => rfl)

/-- First layer: entry `(r, l)` of the product reads the weights down column `l`. -/
theorem ridx19 (r : Fin 800000) (l : Fin 64) (k : Fin 128) : ridx_main_v19 (ix2 r l) k = ix2 k l :=
  funext fun a => Fin.ext (by match a with | ⟨0, _⟩ => rfl | ⟨1, _⟩ => rfl)

/-- First layer: the bias, made a row and spread down the matrix, is read at `l`. -/
theorem idx20_21 (r : Fin 800000) (l : Fin 64) : idx_main_v20 (idx_main_v21 (ix2 r l)) = ix1 l :=
  funext fun a => Fin.ext (by match a with | ⟨0, _⟩ => rfl)

/-- Second layer: entry `(r, k)` of the product reads the first hidden layer along row `r`. -/
theorem lidx24 (r : Fin 800000) (k : Fin 32) (l : Fin 64) : lidx_main_v24 (ix2 r k) l = ix2 r l :=
  funext fun a => Fin.ext (by match a with | ⟨0, _⟩ => rfl | ⟨1, _⟩ => rfl)

/-- Second layer: entry `(r, k)` of the product reads the weights down column `k`. -/
theorem ridx24 (r : Fin 800000) (k : Fin 32) (l : Fin 64) : ridx_main_v24 (ix2 r k) l = ix2 l k :=
  funext fun a => Fin.ext (by match a with | ⟨0, _⟩ => rfl | ⟨1, _⟩ => rfl)

/-- Second layer: the bias is read at `k`. -/
theorem idx25_26 (r : Fin 800000) (k : Fin 32) : idx_main_v25 (idx_main_v26 (ix2 r k)) = ix1 k :=
  funext fun a => Fin.ext (by match a with | ⟨0, _⟩ => rfl)

/-- Third layer: entry `(r, 0)` of the product reads the second hidden layer along row `r`. -/
theorem lidx29 (r : Fin 800000) (k : Fin 32) : lidx_main_v29 (ix2 r (0 : Fin 1)) k = ix2 r k :=
  funext fun a => Fin.ext (by match a with | ⟨0, _⟩ => rfl | ⟨1, _⟩ => rfl)

/-- Third layer: entry `(r, 0)` of the product reads the weights' only column. -/
theorem ridx29 (r : Fin 800000) (k : Fin 32) : ridx_main_v29 (ix2 r (0 : Fin 1)) k = ix2 k (0 : Fin 1) :=
  funext fun a => Fin.ext (by match a with | ⟨0, _⟩ => rfl | ⟨1, _⟩ => rfl)

/-- Third layer: the bias has one entry. -/
theorem idx30_31 (r : Fin 800000) : idx_main_v30 (idx_main_v31 (ix2 r (0 : Fin 1))) = ix1 (0 : Fin 1) :=
  funext fun a => Fin.ext (by match a with | ⟨0, _⟩ => rfl)

/-- The gate, a column, spread along the row: entry `(r, a)` reads the column at row `r`. -/
theorem idx46 (r : Fin 800000) (a : Fin 128) : idx_main_v46 (ix2 r a) = ix2 r (0 : Fin 1) :=
  funext fun d => Fin.ext (by match d with | ⟨0, _⟩ => rfl | ⟨1, _⟩ => rfl)

/-- The slice of columns `0 … 63`: entry `(r, j)` reads column `j`. -/
theorem idx48 (r : Fin 800000) (j : Fin 64) : idx_main_v48 (ix2 r j) = ix2 r (⟨j.val, by omega⟩ : Fin 128) :=
  funext fun d => Fin.ext (by match d with | ⟨0, _⟩ => rfl | ⟨1, _⟩ => rfl)

/-- The slice of columns `64 … 127`: entry `(r, j)` reads column `64 + j`. -/
theorem idx58 (r : Fin 800000) (j : Fin 64) : idx_main_v58 (ix2 r j) = ix2 r (⟨64 + j.val, by omega⟩ : Fin 128) :=
  funext fun d => Fin.ext (by match d with | ⟨0, _⟩ => rfl | ⟨1, _⟩ => rfl)

end Indices

variable (x0 : (⟨S50000x64, .f32⟩ : BufTy).Contents (Elt Ideal)) (x1 : (⟨S2x800000, .i32⟩ : BufTy).Contents (Elt Ideal))
  (x4 : (⟨S128x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))
  (x8 : (⟨S32x1, .f32⟩ : BufTy).Contents (Elt Ideal)) (x9 : (⟨S1, .f32⟩ : BufTy).Contents (Elt Ideal))

/-! ## The layers, one entry at a time -/

/-- The first hidden layer at `(r, l)`. -/
theorem hidden1_row (r : Fin 800000) (l : Fin 64) :
    val_main_v23 (F := Ideal) x0 x1 x4 x5 (ix2 r l)
      = Cert.EdgeGate.hidden1 (fun a l => x4 (ix2 a l)) (fun l => x5 (ix1 l)) (fun a => val_main_v18 (F := Ideal) x0 x1 (ix2 r a)) l := by
  rw [val_main_v23_apply, val_main_v22_apply, val_main_v19_apply, val_main_v21_apply, val_main_v20_apply,
    val_main_call0_v0_apply, val_main_call0_cst_apply, idx20_21]
  unfold Cert.EdgeGate.hidden1
  refine congrArg (fun s => FloatOps.maximumf (F := Ideal) (φ := .f32) (FloatOps.addf (F := Ideal) (φ := .f32) s _) _) ?_
  exact Finset.sum_congr rfl fun k _ => by rw [lidx19, ridx19]

/-- The second hidden layer at `(r, k)`. -/
theorem hidden2_row (r : Fin 800000) (k : Fin 32) :
    val_main_v28 (F := Ideal) x0 x1 x4 x5 x6 x7 (ix2 r k)
      = Cert.EdgeGate.hidden2 (fun a l => x4 (ix2 a l)) (fun l => x5 (ix1 l)) (fun l k => x6 (ix2 l k)) (fun k => x7 (ix1 k)) (fun a => val_main_v18 (F := Ideal) x0 x1 (ix2 r a)) k := by
  rw [val_main_v28_apply, val_main_v27_apply, val_main_v24_apply, val_main_v26_apply, val_main_v25_apply,
    val_main_call1_v0_apply, val_main_call1_cst_apply, idx25_26]
  unfold Cert.EdgeGate.hidden2
  refine congrArg (fun s => FloatOps.maximumf (F := Ideal) (φ := .f32) (FloatOps.addf (F := Ideal) (φ := .f32) s _) _) ?_
  exact Finset.sum_congr rfl fun l _ => by rw [lidx24, ridx24, hidden1_row]

/-- The output layer's number at `(r, 0)`. -/
theorem logit_row (r : Fin 800000) :
    val_main_v32 (F := Ideal) x0 x1 x4 x5 x6 x7 x8 x9 (ix2 r (0 : Fin 1))
      = Cert.EdgeGate.logit (fun a l => x4 (ix2 a l)) (fun l => x5 (ix1 l)) (fun l k => x6 (ix2 l k)) (fun k => x7 (ix1 k)) (fun k => x8 (ix2 k (0 : Fin 1))) (x9 (ix1 (0 : Fin 1))) (fun a => val_main_v18 (F := Ideal) x0 x1 (ix2 r a)) := by
  rw [val_main_v32_apply, val_main_v29_apply, val_main_v31_apply, val_main_v30_apply, idx30_31]
  unfold Cert.EdgeGate.logit
  refine congrArg (fun s => FloatOps.addf (F := Ideal) (φ := .f32) s _) ?_
  exact Finset.sum_congr rfl fun k _ => by rw [lidx29, ridx29, hidden2_row]

theorem score_row (r : Fin 800000) (u : Fin 1) :
    val_main_v38 (F := Ideal) x0 x1 x4 x5 x6 x7 x8 x9 (ix2 r u)
      = Cert.EdgeGate.score (fun a l => x4 (ix2 a l)) (fun l => x5 (ix1 l)) (fun l k => x6 (ix2 l k)) (fun k => x7 (ix1 k)) (fun k => x8 (ix2 k (0 : Fin 1))) (x9 (ix1 (0 : Fin 1))) (fun a => val_main_v18 (F := Ideal) x0 x1 (ix2 r a)) := by
  obtain rfl : u = 0 := Subsingleton.elim _ _
  rw [val_main_v38_apply, val_main_v37_apply, val_main_cst_3_apply, val_main_v36_apply, val_main_v35_apply,
    val_main_cst_apply, val_main_v34_apply, val_main_v33_apply, logit_row]
  exact Cert.EdgeGate.logistic_spelt _

/-- The gate at `(r, 0)`. -/
theorem gate_row (r : Fin 800000) :
    val_main_v44 (F := Ideal) x0 x1 x4 x5 x6 x7 x8 x9 (ix2 r (0 : Fin 1))
      = Cert.EdgeGate.gate (fun a l => x4 (ix2 a l)) (fun l => x5 (ix1 l)) (fun l k => x6 (ix2 l k)) (fun k => x7 (ix1 k)) (fun k => x8 (ix2 k (0 : Fin 1))) (x9 (ix1 (0 : Fin 1))) (fun a => val_main_v18 (F := Ideal) x0 x1 (ix2 r a)) := by
  rw [val_main_v44_apply, val_main_v41_apply, val_main_v40_apply, val_main_v43_apply, val_main_v42_apply,
    val_main_cst_5_apply, val_main_v39_apply, val_main_cst_4_apply, score_row]
  rfl

/-- The gated hyperbolic tangent at `(r, a)`, before the step constant. -/
theorem gated_tanh_row (r : Fin 800000) (a : Fin 128) :
    val_main_v47 (F := Ideal) x0 x1 x4 x5 x6 x7 x8 x9 (ix2 r a)
      = FloatOps.mulf (F := Ideal) (φ := .f32)
          (Cert.EdgeGate.gate (fun a l => x4 (ix2 a l)) (fun l => x5 (ix1 l)) (fun l k => x6 (ix2 l k)) (fun k => x7 (ix1 k)) (fun k => x8 (ix2 k (0 : Fin 1))) (x9 (ix1 (0 : Fin 1))) (fun a => val_main_v18 (F := Ideal) x0 x1 (ix2 r a)))
          (FloatOps.tanh (F := Ideal) (φ := .f32) (val_main_v18 (F := Ideal) x0 x1 (ix2 r a))) := by
  rw [val_main_v47_apply, val_main_v46_apply, val_main_v45_apply, idx46, gate_row]
  rfl

theorem update_src_row (r : Fin 800000) (j : Fin 64) :
    val_main_v50 (F := Ideal) x0 x1 x4 x5 x6 x7 x8 x9 (ix2 r j)
      = Cert.EdgeGate.signal (fun a l => x4 (ix2 a l)) (fun l => x5 (ix1 l)) (fun l k => x6 (ix2 l k)) (fun k => x7 (ix1 k)) (fun k => x8 (ix2 k (0 : Fin 1))) (x9 (ix1 (0 : Fin 1))) (fun a => val_main_v18 (F := Ideal) x0 x1 (ix2 r a)) ⟨j.val, by omega⟩ := by
  rw [val_main_v50_apply, val_main_v49_apply, val_main_cst_6_apply, val_main_v48_apply, idx48, gated_tanh_row]
  rfl

theorem update_tgt_row (r : Fin 800000) (j : Fin 64) :
    val_main_v60 (F := Ideal) x0 x1 x4 x5 x6 x7 x8 x9 (ix2 r j)
      = Cert.EdgeGate.signal (fun a l => x4 (ix2 a l)) (fun l => x5 (ix1 l)) (fun l k => x6 (ix2 l k)) (fun k => x7 (ix1 k)) (fun k => x8 (ix2 k (0 : Fin 1))) (x9 (ix1 (0 : Fin 1))) (fun a => val_main_v18 (F := Ideal) x0 x1 (ix2 r a)) ⟨64 + j.val, by omega⟩ := by
  rw [val_main_v60_apply, val_main_v59_apply, val_main_cst_9_apply, val_main_v58_apply, idx58, gated_tanh_row]
  rfl

end Cert.ReferenceIdeal.RowValue
end
-- ==== Proof.SpecCongr.lean ====
/-
  The row functions of Spec depend on the weights and on the row only through their entries: equal entries, equal
  values. (What lets either program hand in its own layout of the same numbers.)
-/
import proofs.«174250_j85856396247191_1_alg».proof.Proof.Spec

noncomputable section

namespace Cert.EdgeGate

open Idealize.ShloMosaic

variable {W1 W1' : Fin 128 → Fin 64 → Ideal .f32} {b1 b1' : Fin 64 → Ideal .f32}
  {W2 W2' : Fin 64 → Fin 32 → Ideal .f32} {b2 b2' : Fin 32 → Ideal .f32}
  {W3 W3' : Fin 32 → Ideal .f32} {b3 b3' : Ideal .f32} {row row' : Fin 128 → Ideal .f32}

/-- The score of a row is the same for entrywise equal weights and rows. -/
theorem score_congr (h1 : ∀ a l, W1 a l = W1' a l) (hb1 : ∀ l, b1 l = b1' l) (h2 : ∀ l k, W2 l k = W2' l k)
    (hb2 : ∀ k, b2 k = b2' k) (h3 : ∀ k, W3 k = W3' k) (hb3 : b3 = b3') (hrow : ∀ a, row a = row' a) :
    score W1 b1 W2 b2 W3 b3 row = score W1' b1' W2' b2' W3' b3' row' := by
  obtain rfl : W1 = W1' := funext fun a => funext (h1 a)
  obtain rfl : b1 = b1' := funext hb1
  obtain rfl : W2 = W2' := funext fun l => funext (h2 l)
  obtain rfl : b2 = b2' := funext hb2
  obtain rfl : W3 = W3' := funext h3
  obtain rfl : row = row' := funext hrow
  subst hb3
  rfl

/-- The signal of a row along a column is the same for entrywise equal weights and rows. -/
theorem signal_congr (h1 : ∀ a l, W1 a l = W1' a l) (hb1 : ∀ l, b1 l = b1' l) (h2 : ∀ l k, W2 l k = W2' l k)
    (hb2 : ∀ k, b2 k = b2' k) (h3 : ∀ k, W3 k = W3' k) (hb3 : b3 = b3') (hrow : ∀ a, row a = row' a) {j j' : Fin 128}
    (hj : j = j') :
    signal W1 b1 W2 b2 W3 b3 row j = signal W1' b1' W2' b2' W3' b3' row' j' := by
  obtain rfl : W1 = W1' := funext fun a => funext (h1 a)
  obtain rfl : b1 = b1' := funext hb1
  obtain rfl : W2 = W2' := funext fun l => funext (h2 l)
  obtain rfl : b2 = b2' := funext hb2
  obtain rfl : W3 = W3' := funext h3
  obtain rfl : row = row' := funext hrow
  subst hb3 hj
  rfl

end Cert.EdgeGate

end
-- ==== Proof.LibColAsRow.lean ====
/-
  A column laid as a row: an `[a, 1]` array cast to `[1, a]` reads, at `(0, k)`, the column's entry `(k, 0)` — both sit
  at row-major position `k`.
-/
import Idealize.ShloMosaic.Lib.ValueLayout

namespace Cert.LibColAsRow

open Idealize.ShloMosaic Idealize.ShloMosaic.ValueIdx

variable {α : Type}

/-- An `[a, 1]` array cast to the row `[1, a]` reads, at `(u, k)`, the operand at `(k, v)`, whatever the unit coordinates. -/
theorem shapeCast_a1_1a_apply {a : ℕ} (x : (⟨2, ![a, 1]⟩ : Shape).Idx → α) (h : (⟨2, ![a, 1]⟩ : Shape).ShapeCasts ⟨2, ![1, a]⟩)
    (u v : Fin 1) (k : Fin a) : shapeCast ⟨2, ![1, a]⟩ x h (ix2 u k) = x (ix2 k v) :=
  shapeCast_apply x h _ _ (by
    have hu : u.val = 0 := by omega
    have hv : v.val = 0 := by omega
    rw [Shape.rowMajor_val_two, Shape.rowMajor_val_two]
    show k.val * 1 + v.val = u.val * a + k.val
    rw [hu, hv, Nat.mul_one, Nat.add_zero, Nat.zero_mul, Nat.zero_add])

end Cert.LibColAsRow
-- ==== Proof.Bridge.lean ====
/-
  The kernel program's four results, as the reference's stages of the SAME argument arrays.

  Around its one region the kernel's @main is host code. Before the region it gathers the two endpoint rows of every
  edge into one [800000, 128] matrix — the very operations the reference starts with — and re-lays the three bias
  vectors and the last layer's weight column as one-row matrices. After the region it cuts the signal array into its
  source and target halves, scatter-adds them onto the node features, flattens the score column, averages it and
  counts the scores below the threshold.

  Row by row the region's two arrays are the specification's `signal` and `score` of the gathered matrix
  (KernelArrays), and so are the reference's stages (RefRow). Hence the score column IS the reference's score stage,
  and each half of the signal array IS the reference's update array: the reference multiplies by the step after
  cutting, the kernel before, and cutting commutes with a pointwise product. Everything downstream of these arrays is
  the same host text in both programs, so each result is the reference's stage by unfolding.
-/
import proofs.«174250_j85856396247191_1_alg».proof.Proof.Gen.KernelIdeal.Frame
import proofs.«174250_j85856396247191_1_alg».proof.Proof.Gen.ReferenceIdeal.Read
import proofs.«174250_j85856396247191_1_alg».proof.Proof.KernelArrays
import proofs.«174250_j85856396247191_1_alg».proof.Proof.RefRow
import proofs.«174250_j85856396247191_1_alg».proof.Proof.SpecCongr
import proofs.«174250_j85856396247191_1_alg».proof.Proof.LibColAsRow
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.ArrayValue

variable (m : (ℓ : Loc nD τ sig) → Buf (Elt Ideal) ℓ)

/-! ## The arrays the region is launched on -/

set_option maxHeartbeats 4000000 in
/-- The gathered matrix is the reference's: the same slices, wrap-around of negative indices, gathers and join. -/
theorem gathered_eq (c : Dev nD) :
    (V m c main_v18 : S800000x128.Idx → Ideal .f32)
      = Cert.ReferenceIdeal.Read.val_main_v18 (F := Ideal) (m ((c : Thread nD τ).loc main_arg0)) (m ((c : Thread nD τ).loc main_arg1)) := by
  show StableHlo.after hostOps0 (fun b => m (c, b)) (Proc.devRef .tc main_v18) = _
  after_results_simp <;> rfl

set_option maxHeartbeats 4000000 in
theorem bias1_eq (c : Dev nD) :
    (V m c main_v19 : S1x64.Idx → Ideal .f32) = shapeCast S1x64 (m ((c : Thread nD τ).loc main_arg5)) shapeCasts_S64_S1x64 := by
  show StableHlo.after hostOps0 (fun b => m (c, b)) (Proc.devRef .tc main_v19) = _
  after_results_simp <;> rfl

set_option maxHeartbeats 4000000 in
theorem bias2_eq (c : Dev nD) :
    (V m c main_v20 : S1x32.Idx → Ideal .f32) = shapeCast S1x32 (m ((c : Thread nD τ).loc main_arg7)) shapeCasts_S32_S1x32 := by
  show StableHlo.after hostOps0 (fun b => m (c, b)) (Proc.devRef .tc main_v20) = _
  after_results_simp <;> rfl

set_option maxHeartbeats 4000000 in
theorem weight3_eq (c : Dev nD) :
    (V m c main_v21 : S1x32.Idx → Ideal .f32) = shapeCast S1x32 (m ((c : Thread nD τ).loc main_arg8)) shapeCasts_S32x1_S1x32 := by
  show StableHlo.after hostOps0 (fun b => m (c, b)) (Proc.devRef .tc main_v21) = _
  after_results_simp <;> rfl

set_option maxHeartbeats 4000000 in
theorem bias3_eq (c : Dev nD) :
    (V m c main_v22 : S1x1.Idx → Ideal .f32) = shapeCast S1x1 (m ((c : Thread nD τ).loc main_arg9)) shapeCasts_S1_S1x1 := by
  show StableHlo.after hostOps0 (fun b => m (c, b)) (Proc.devRef .tc main_v22) = _
  after_results_simp <;> rfl

set_option maxHeartbeats 4000000 in
/-- The source endpoints, as the reference reads them off the edge list. -/
theorem src_eq (c : Dev nD) :
    (V m c main_v1 : S800000.Idx → BitVec 32) = Cert.ReferenceIdeal.Read.val_main_v1 (F := Ideal) (m ((c : Thread nD τ).loc main_arg1)) := by
  show StableHlo.after hostOps0 (fun b => m (c, b)) (Proc.devRef .tc main_v1) = _
  after_results_simp <;> rfl

set_option maxHeartbeats 4000000 in
/-- The target endpoints. -/
theorem tgt_eq (c : Dev nD) :
    (V m c main_v3 : S800000.Idx → BitVec 32) = Cert.ReferenceIdeal.Read.val_main_v3 (F := Ideal) (m ((c : Thread nD τ).loc main_arg1)) := by
  show StableHlo.after hostOps0 (fun b => m (c, b)) (Proc.devRef .tc main_v3) = _
  after_results_simp <;> rfl

/-- The one-row bias of the first layer, entry by entry. -/
theorem bias1_apply (c : Dev nD) (l : Fin 64) :
    V m c main_v19 (ix2 (0 : Fin 1) l) = m ((c : Thread nD τ).loc main_arg5) (ix1 l) := by
  rw [bias1_eq]; exact shapeCast_a_1a_apply _ _ _ _

theorem bias2_apply (c : Dev nD) (k : Fin 32) :
    V m c main_v20 (ix2 (0 : Fin 1) k) = m ((c : Thread nD τ).loc main_arg7) (ix1 k) := by
  rw [bias2_eq]; exact shapeCast_a_1a_apply _ _ _ _

/-- The last layer's weight column laid as a row: entry `k` of the row is entry `k` of the column (both sit at
    row-major position `k`). -/
theorem weight3_apply (c : Dev nD) (k : Fin 32) :
    V m c main_v21 (ix2 (0 : Fin 1) k) = m ((c : Thread nD τ).loc main_arg8) (ix2 k (0 : Fin 1)) := by
  rw [weight3_eq]; exact Cert.LibColAsRow.shapeCast_a1_1a_apply _ _ _ _ _

theorem bias3_apply (c : Dev nD) :
    V m c main_v22 (ix2 (0 : Fin 1) (0 : Fin 1)) = m ((c : Thread nD τ).loc main_arg9) (ix1 (0 : Fin 1)) := by
  rw [bias3_eq]; exact shapeCast_a_1a_apply _ _ _ _

/-! ## The region's two arrays are the reference's stages -/

/-- The score column is the reference's score stage. -/
theorem score_eq (c : Dev nD) :
    scoreArr m c = Cert.ReferenceIdeal.Read.val_main_v38 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, u, rfl⟩ : ∃ (r : Fin 800000) (u : Fin 1), i = ix2 r u := ⟨i 0, i 1, eq_ix2 i⟩
  rw [Cert.ReferenceIdeal.RowValue.score_row]
  unfold scoreArr
  exact Cert.EdgeGate.score_congr (fun a l => congrFun (V_main_arg4 m c) (ix2 a l)) (bias1_apply m c)
    (fun l k => congrFun (V_main_arg6 m c) (ix2 l k)) (bias2_apply m c) (weight3_apply m c) (bias3_apply m c)
    (fun a => congrFun (gathered_eq m c) (ix2 r a))

/-- The signal array's source half is the reference's first update array. -/
theorem update_src_eq (c : Dev nD) :
    extractStridedSlice S800000x64 ![0, 0] (signalArr m c) slices_S800000x128_S800000x64_0_0
      = Cert.ReferenceIdeal.Read.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, j, rfl⟩ : ∃ (r : Fin 800000) (j : Fin 64), i = ix2 r j := ⟨i 0, i 1, eq_ix2 i⟩
  rw [Cert.ReferenceIdeal.RowValue.update_src_row]
  refine (slice2_axis1_apply 0 (signalArr m c) slices_S800000x128_S800000x64_0_0 r j ⟨j.val, by omega⟩ (by simp)).trans ?_
  unfold signalArr
  exact Cert.EdgeGate.signal_congr (fun a l => congrFun (V_main_arg4 m c) (ix2 a l)) (bias1_apply m c)
    (fun l k => congrFun (V_main_arg6 m c) (ix2 l k)) (bias2_apply m c) (weight3_apply m c) (bias3_apply m c)
    (fun a => congrFun (gathered_eq m c) (ix2 r a)) rfl

/-- The signal array's target half is the reference's second update array. -/
theorem update_tgt_eq (c : Dev nD) :
    extractStridedSlice S800000x64 ![0, 64] (signalArr m c) slices_S800000x128_S800000x64_0_64
      = Cert.ReferenceIdeal.Read.val_main_v60 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, j, rfl⟩ : ∃ (r : Fin 800000) (j : Fin 64), i = ix2 r j := ⟨i 0, i 1, eq_ix2 i⟩
  rw [Cert.ReferenceIdeal.RowValue.update_tgt_row]
  refine (slice2_axis1_apply 64 (signalArr m c) slices_S800000x128_S800000x64_0_64 r j ⟨64 + j.val, by omega⟩ rfl).trans ?_
  unfold signalArr
  exact Cert.EdgeGate.signal_congr (fun a l => congrFun (V_main_arg4 m c) (ix2 a l)) (bias1_apply m c)
    (fun l k => congrFun (V_main_arg6 m c) (ix2 l k)) (bias2_apply m c) (weight3_apply m c) (bias3_apply m c)
    (fun a => congrFun (gathered_eq m c) (ix2 r a)) rfl

/-! ## After the region -/

/-- The score array after the run is the reference's score stage. -/
theorem after_score (c : Dev nD) :
    Pipeline.withArrays (cfgs 0).spec c (V0 m c) (fun w => (dats m 0 c).arrAt w (cfgs 0).N) (Proc.tc.devRef main_v23_1)
      = Cert.ReferenceIdeal.Read.val_main_v38 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((Pipeline.withArrays_arr spec0 launch0.win.arr_inj c _ _ 8).trans (final8 m c)).trans (score_eq m c)

/-- The signal array after the run is the row-by-row signal of the gathered matrix. -/
theorem after_signal (c : Dev nD) :
    Pipeline.withArrays (cfgs 0).spec c (V0 m c) (fun w => (dats m 0 c).arrAt w (cfgs 0).N) (Proc.tc.devRef main_v23_0)
      = signalArr m c :=
  (Pipeline.withArrays_arr spec0 launch0.win.arr_inj c _ _ 7).trans (final7 m c)

/-- The node features are not an array of the region: the lines after it find them as launched. -/
theorem after_features (c : Dev nD) :
    Pipeline.withArrays (cfgs 0).spec c (V0 m c) (fun w => (dats m 0 c).arrAt w (cfgs 0).N) (Proc.tc.devRef main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

/-- Nor are the source endpoints. -/
theorem after_src (c : Dev nD) :
    Pipeline.withArrays (cfgs 0).spec c (V0 m c) (fun w => (dats m 0 c).arrAt w (cfgs 0).N) (Proc.tc.devRef main_v1)
      = Cert.ReferenceIdeal.Read.val_main_v1 (F := Ideal) (m ((c : Thread nD τ).loc main_arg1)) :=
  (Pipeline.withArrays_of_ne _ c (V0 m c) _ main_v1 (by exact (by decide : ∀ w, Pipeline.arrRef spec0 w ≠ main_v1))).trans
    (src_eq m c)

/-- Nor the target endpoints. -/
theorem after_tgt (c : Dev nD) :
    Pipeline.withArrays (cfgs 0).spec c (V0 m c) (fun w => (dats m 0 c).arrAt w (cfgs 0).N) (Proc.tc.devRef main_v3)
      = Cert.ReferenceIdeal.Read.val_main_v3 (F := Ideal) (m ((c : Thread nD τ).loc main_arg1)) :=
  (Pipeline.withArrays_of_ne _ c (V0 m c) _ main_v3 (by exact (by decide : ∀ w, Pipeline.arrRef spec0 w ≠ main_v3))).trans
    (tgt_eq m c)

set_option maxHeartbeats 4000000 in
/-- The flattened scores are the reference's. -/
theorem scores_eq (c : Dev nD) :
    Pipeline.afterTail₀ cfgs (dats m) 0 (V0 m) [hostOps1] c main_v40
      = Cert.ReferenceIdeal.Read.val_main_v68 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v40) = _
  after_results_simp
  rw [after_score]
  rfl

set_option maxHeartbeats 4000000 in
/-- Their average is the reference's. -/
theorem average_eq (c : Dev nD) :
    Pipeline.afterTail₀ cfgs (dats m) 0 (V0 m) [hostOps1] c main_v42
      = Cert.ReferenceIdeal.Read.val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v42) = _
  after_results_simp
  rw [after_score]
  rfl

set_option maxHeartbeats 4000000 in
/-- The count of scores below the threshold is the reference's. -/
theorem count_eq (c : Dev nD) :
    Pipeline.afterTail₀ cfgs (dats m) 0 (V0 m) [hostOps1] c main_v46
      = Cert.ReferenceIdeal.Read.val_main_v74 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v46) = _
  after_results_simp
  rw [after_score]
  rfl

set_option maxHeartbeats 4000000 in
/-- The updated node features are the reference's: the same two scatter-adds, at the same endpoints, of the same two
    update arrays. -/
theorem updated_eq (c : Dev nD) :
    Pipeline.afterTail₀ cfgs (dats m) 0 (V0 m) [hostOps1] c main_v39
      = Cert.ReferenceIdeal.Read.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v39) = _
  after_results_simp
  rw [after_features, after_src, after_tgt, after_signal, update_src_eq, update_tgt_eq]
  rfl

/-! ## The kernel program's run, re-posted -/

/-- Every weakly fair execution of the kernel program ends with its four results at the reference's stages of the
    argument arrays, and the arguments as launched: the frame run read at the four results (buffers the region does not
    stage, so the lines after it decide them) and at the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v39) = Cert.ReferenceIdeal.Read.val_main_v67 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v40) = Cert.ReferenceIdeal.Read.val_main_v68 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v42) = Cert.ReferenceIdeal.Read.val_main_v70 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v46) = Cert.ReferenceIdeal.Read.val_main_v74 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v39 (Pipeline.mem_restRefs_of main_v39 (by decide) (by decide))).trans (updated_eq m c),
      ((h c).2 main_v40 (Pipeline.mem_restRefs_of main_v40 (by decide) (by decide))).trans (scores_eq m c),
      ((h c).2 main_v42 (Pipeline.mem_restRefs_of main_v42 (by decide) (by decide))).trans (average_eq m c),
      ((h c).2 main_v46 (Pipeline.mem_restRefs_of main_v46 (by decide) (by decide))).trans (count_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Bridge

end
-- ==== Proof.lean ====
/-
  The certificate of the fused edge network against its plain reference.

  Both programs take node features, an edge list and the weights of a three-layer network. For every edge they gather
  the features of its two endpoints into one row of 128 numbers, run the row through the network
  (`max (· W1 + b1) 0`, `max (· W2 + b2) 0`, `· W3 + b3`, the logistic), form the gate `[score < 0.7] · (1 − score)` and
  the signal `0.05 · gate · tanh row`, scatter-add the signal's two halves onto the endpoints' features, and return the
  updated features, the scores, their average and the number of scores below the threshold. The reference does all of
  it on whole arrays; the kernel program does the network, gate and signal inside one grid of 100 blocks of 8000 edges
  and leaves the gather, the scatter-adds and the two reductions to the same host operations around it.

  At the ideal values the two agree entry by entry, with no law of arithmetic needed at all: the
  kernel's last layer is a product with a repeated weight row summed along the row where the reference contracts with
  a one-column matrix (the same sum of the same products), the kernel's logistic is one operation where the reference
  spells `1 / (1 + exp (−x))` (the same function, by its definition), the kernel turns the comparison bit into a
  number through a word where the reference converts the bit (the same 0 or 1), and the kernel multiplies by the step
  before cutting the signal in two where the reference cuts first. No hypothesis on the inputs is used.

  The pieces: Spec (one row's arithmetic), KernelRow (a row of a kernel block is that arithmetic), KernelArrays (the
  100 blocks make the two whole arrays), RefRow (a row of the reference's stages is that arithmetic), Bridge (the
  kernel program's four results are the reference's stages of the same arguments). Here the claims are assembled: the
  two kernel frames are the generated ones, the reference's frame is its run with the results dropped, the
  idealization rewrote nothing, and the equivalence puts the two runs side by side.
-/
import proofs.«174250_j85856396247191_1_alg».proof.Defs
import proofs.«174250_j85856396247191_1_alg».proof.Proof.Gen.Kernel
import proofs.«174250_j85856396247191_1_alg».proof.Proof.Gen.Kernel.Skeleton
import proofs.«174250_j85856396247191_1_alg».proof.Proof.Gen.Kernel.Launch
import proofs.«174250_j85856396247191_1_alg».proof.Proof.Gen.Kernel.Points
import proofs.«174250_j85856396247191_1_alg».proof.Proof.Gen.Kernel.Frame
import proofs.«174250_j85856396247191_1_alg».proof.Proof.Gen.KernelIdeal
import proofs.«174250_j85856396247191_1_alg».proof.Proof.Gen.KernelIdeal.Skeleton
import proofs.«174250_j85856396247191_1_alg».proof.Proof.Gen.KernelIdeal.Launch
import proofs.«174250_j85856396247191_1_alg».proof.Proof.Gen.KernelIdeal.Points
import proofs.«174250_j85856396247191_1_alg».proof.Proof.Gen.KernelIdeal.Frame
import proofs.«174250_j85856396247191_1_alg».proof.Proof.Gen.ReferenceIdeal
import proofs.«174250_j85856396247191_1_alg».proof.Proof.Gen.Pre_finite_inputs
import proofs.«174250_j85856396247191_1_alg».proof.Proof.Gen.ReferenceIdeal.Run
import proofs.«174250_j85856396247191_1_alg».proof.Proof.Gen.ReferenceIdeal.Read
import proofs.«174250_j85856396247191_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host code only: its run, with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

set_option maxHeartbeats 4000000 in
/-- From memories agreeing on the arguments both programs end with the reference's stages of those arguments: the kernel
    program by its run re-posted, the reference by its own run, each result being its stage and the arguments agreeing. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Bridge.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨e0, e1, -, -, e4, e5, e6, e7, e8, e9⟩ := hagree c
  refine ⟨?_, ?_, ?_, ?_, hargs⟩
  · rw [h0, Cert.ReferenceIdeal.Read.val_main_v67_eq, e0, e1, e4, e5, e6, e7, e8, e9]
  · rw [h1, Cert.ReferenceIdeal.Read.val_main_v68_eq, e0, e1, e4, e5, e6, e7, e8, e9]
  · rw [h2, Cert.ReferenceIdeal.Read.val_main_v70_eq, e0, e1, e4, e5, e6, e7, e8, e9]
  · rw [h3, Cert.ReferenceIdeal.Read.val_main_v74_eq, e0, e1, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
